-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192 .f32) (main_arg1 : FVec F S8192x8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192 : Shape := ⟨1, ![8192]⟩
abbrev S8192x8192 : Shape := ⟨2, ![8192, 8192]⟩
abbrev S_ : Shape := ⟨0, ![]⟩
abbrev S1 : Shape := ⟨1, ![1]⟩
abbrev S256x8192 : Shape := ⟨2, ![256, 8192]⟩
abbrev S256 : Shape := ⟨1, ![256]⟩

abbrev nBuf : Space → Nat
  | .hbm => 25
  | .vmem => 4
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256, .f32⟩
  | .local _ .vmem, ⟨3, _⟩ => ⟨S256, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  bcast_S_S8192 : S_.BroadcastsInDim S8192 (![] : Fin 0 → Fin S8192.rank)
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  inb_S256_S256_0 : ∀ a, (![0] : Fin 1 → Nat) a + S256.size a ≤ S256.size a
  h_S256 : 0 < S256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S8192.size a
  hwx0_1 : ∀ i : grid0.Coords, EltTy.bits .f32 = 32 ∨ (Rect.block (s := S8192) S256.size (cc0_transform_1 i) (hinb0_1 i)).WholeWords (EltTy.packing .f32)

variable [Facts₀]

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192 : Shape := ⟨1, ![8192]⟩
abbrev S8192x8192 : Shape := ⟨2, ![8192, 8192]⟩
abbrev S_ : Shape := ⟨0, ![]⟩
abbrev S1 : Shape := ⟨1, ![1]⟩

abbrev nBuf : Space → Nat
  | .hbm => 27
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  bcast_S_S8192 : S_.BroadcastsInDim S8192 (![] : Fin 0 → Fin S8192.rank)
  reducesTo_S8192x8192_S8192_d1 : S8192x8192.ReducesTo [1] S8192

variable [Facts₀]

class Facts : Prop extends Facts₀ where

variable [Facts]
-- ==== Proof.RowSq.lean ====
/-
  The one sum in this certificate: the squares of a matrix row, added up.

  For a matrix with 8192 columns write  rowSq w r = ∑ₖ w[r,k]²  over the extended reals (a square is never
  negative, so the sum is defined whatever the entries are: no finiteness is used anywhere).
  Two operations compute it:
    · on a 256-row block, a lane reduction  vector.multi_reduction <add> … [1]  of the product x·x into the
      zero accumulator — at the ideal values the plain sum over the column coordinate;
    · on the whole 8192 × 8192 array, the host's  reduce add  over axis 1 of the product w·w from the zero
      constant — the initial value 0 plus the same sum.
  A block's row p at grid point t is the array's row 256·t + p, so the blocks together hold the host's vector.
-/
import Idealize.ShloMosaic.PureOps.Ideal.Laws
import Idealize.ShloMosaic.Lib.ValueIdx

noncomputable section

namespace Cert.RowSq

open Idealize.ShloMosaic Idealize.ShloMosaic.ValueIdx

/-- The whole matrix, a block of 256 of its rows, and the vectors with one entry per row of each. -/
abbrev Sw : Shape := ⟨2, ![8192, 8192]⟩
abbrev Sblk : Shape := ⟨2, ![256, 8192]⟩
abbrev Sr : Shape := ⟨1, ![8192]⟩
abbrev Srb : Shape := ⟨1, ![256]⟩
abbrev S0 : Shape := ⟨0, ![]⟩

/-- Row r of the whole matrix: ∑ₖ w[r,k]². -/
def rowSq (w : Sw.Idx → EReal) (r : Fin 8192) : EReal := ∑ k : Fin 8192, w (ix2 r k) * w (ix2 r k)

/-- Row p of a 256-row block: ∑ₖ x[p,k]². -/
def blkSq (x : Sblk.Idx → EReal) (p : Fin 256) : EReal := ∑ k : Fin 8192, x (ix2 p k) * x (ix2 p k)

/-- The vector of all row sums, as an array over the row index. -/
def rowSqVec (w : Sw.Idx → EReal) : Sr.Idx → EReal := fun i => rowSq w (i 0)

theorem redW : Sw.Reduces [1] Sr := by decide
theorem redB : Sblk.Reduces [1] Srb := by decide

/-- The host's row reduction of w·w from the zero constant, at row r, is rowSq w r. -/
theorem host_rowSq (h' : Sw.ReducesTo [1] Sr) (hS : 0 < S0.numel) (w : FVec Ideal Sw .f32) (i : Sr.Idx) :
    Host.reduceAdd (F := Ideal) (mulf w w) (constant (F := Ideal) S0 .f32 0x00000000#32) h' hS i = rowSqVec w i := by
  simp only [Host.reduceAdd, Ideal.hostReduceAdd_def]
  rw [Ideal.hostReduceAdd_single h' redW]
  show Ideal.ofBits .f32 0x00000000#32 + _ = _
  rw [Ideal.ofBits_zero_f32, zero_add]
  unfold rowSqVec rowSq
  refine Finset.sum_congr rfl fun k _ => ?_
  have e : redW.lift i k = ix2 (i 0) k :=
    funext fun a => Fin.ext (by match a with | ⟨0, _⟩ => rfl | ⟨1, _⟩ => rfl)
  rw [e]; rfl

/-- The lane reduction of x·x into the zero accumulator, at row p of the block, is blkSq x p. -/
theorem lane_blkSq (h : Sblk.Reduces [1] Srb) (hφ : FKind.Formats .f32) (hacc : (0x00000000#32 : BitVec 32) = 0x00000000#32)
    (x : FVec Ideal Sblk .f32) (j : Srb.Idx) :
    multiReduction (F := Ideal) .add [1] Srb (mulf x x) 0x00000000#32 h hφ hacc j = blkSq x (j 0) := by
  refine (Ideal.multiReduction_add_single (mulf x x) 0x00000000#32 h hφ hacc j).trans ?_
  unfold blkSq
  refine Finset.sum_congr rfl fun k _ => ?_
  have e : h.lift j k = ix2 (j 0) k :=
    funext fun a => Fin.ext (by match a with | ⟨0, _⟩ => rfl | ⟨1, _⟩ => rfl)
  rw [e]; rfl

/-- A block whose row p is the matrix's row r has the matrix's row sum there. -/
theorem blkSq_eq_rowSq (x : Sblk.Idx → EReal) (w : Sw.Idx → EReal) (p : Fin 256) (r : Fin 8192)
    (hx : ∀ k : Fin 8192, x (ix2 p k) = w (ix2 r k)) : blkSq x p = rowSq w r := by
  unfold blkSq rowSq
  exact Finset.sum_congr rfl fun k _ => by rw [hx k]

end Cert.RowSq

end
-- ==== Proof.KernelRowSq.lean ====
/-
  What the kernel leaves in its output array: the vector of row sums of squares of w.

  The grid has 32 points; point t stages rows 256·t … 256·t + 255 of w (all 8192 columns) and writes back
  entries 256·t … 256·t + 255 of the output, each the lane sum of the squares of its row of the block.
  So what point t writes back is block t of the one vector  i ↦ ∑ₖ w[i,k]²,  and the 32 blocks tile the
  8192 entries (entry i lies in block i / 256): after the run the array is that vector.
-/
import proofs.«128556_j41944650613016_1_alg».proof.Proof.Gen.KernelIdeal.Frame
import proofs.«128556_j41944650613016_1_alg».proof.Proof.RowSq
import Idealize.ShloMosaic.Lib.Pipeline.Value
import Idealize.ShloMosaic.Lib.ValueIdx

set_option maxRecDepth 16384

noncomputable section

namespace Cert.KernelIdeal.RowSums

open Idealize.ShloMosaic Idealize.ShloMosaic.TcCoe Idealize.SL.Sem Idealize.ShloMosaic.ValueIdx
open Cert.KernelIdeal Cert.KernelIdeal.Gen Cert.RowSq
open Idealize.ShloMosaic.Pipeline (Dat Cfg Window)

variable (m : (ℓ : Loc nD τ sig) → Buf (Elt Ideal) ℓ)

theorem hz1 : (![0] : Fin 1 → Nat) = fun _ => 0 := funext fun a => by fin_cases a; rfl
theorem hz2 : (![0, 0] : Fin 2 → Nat) = fun _ => 0 := funext fun a => by fin_cases a <;> rfl

/-- The body's stored value at entry j of the output block: the sum of the squares of row j of the input block. -/
theorem stored_apply (x0 : FVec Ideal S256x8192 .f32) (j : S256.Idx) :
    k0_pay1 (F := Ideal) x0 j = blkSq x0 (j 0) := by
  unfold k0_pay1
  exact lane_blkSq _ _ _ x0 j

/-- The printed index maps over the grid: the input block and the output block move together along the rows, the
    input block always starts at column 0, and the output's block index stays below 32. -/
theorem idx_facts : ∀ t : Fin cfg0.N, win0_0.index t (0 : Fin 2) = win0_1.index t (0 : Fin 1)
    ∧ win0_0.index t (1 : Fin 2) = 0 ∧ win0_1.index t (0 : Fin 1) ≤ 31 :=
  (by decide +kernel : ∀ t : Fin grid0.N, _)

/-- Every one of the 32 output blocks is some point's. -/
theorem idx_onto : ∀ q : Fin 32, ∃ t : Fin cfg0.N, win0_1.index t = ![q.val] :=
  (by decide +kernel : ∀ q : Fin 32, ∃ t : Fin grid0.N, win0_1.index t = ![q.val])

/-- What point t writes back is block t of the row-sum vector of w as the region finds it. -/
theorem flushed_eq (c : Dev nD) (t : Fin cfg0.N) :
    (dats m 0 c).flushed 1 t = ((cfg0.win 1).blk t).view.read (Elt Ideal) (rowSqVec (V m c main_arg1)) := by
  show (cfg0.win 1).cut (grid0.coords t) ((dats m 0 c).after 1 t) = _
  rw [after0_1]
  unfold out0_1
  rw [View.canon_unit_zero hz1]
  simp only [View.ld_unit_zero (S := S256x8192) hz2]
  obtain ⟨e0, e1, e2⟩ := idx_facts t
  funext j
  show k0_pay1 (F := Ideal) (iblk m c 0 t) j = rowSqVec (V m c main_arg1) (((cfg0.win 1).blk t).view.emb j)
  refine (stored_apply (iblk m c 0 t) j).trans ?_
  show blkSq (iblk m c 0 t) (j 0) = rowSq (V m c main_arg1) ((((cfg0.win 1).blk t).view.emb j) 0)
  refine blkSq_eq_rowSq _ _ _ _ fun k => ?_
  show V m c main_arg1 (((cfg0.win 0).blk t).view.emb (ix2 (j 0) k)) = _
  refine congrArg (V m c main_arg1) (funext fun a => Fin.ext ?_)
  match a with
  | ⟨0, _⟩ =>
    show win0_0.index t (0 : Fin 2) * 256 + 1 * (j 0).val = win0_1.index t (0 : Fin 1) * 256 + 1 * (j 0).val
    omega
  | ⟨1, _⟩ =>
    show win0_0.index t (1 : Fin 2) * 8192 + 1 * k.val = k.val
    omega

/-- An entry of the output array is in point t's block iff it lies among the block's 256 entries. -/
theorem mem_blk (t : Fin cfg0.N) (i : S8192.Idx) :
    i ∈ ((cfg0.win 1).blk t).view.set ↔
      ∀ a : Fin 1, win0_1.index t a * S256.size a ≤ (i a).val ∧ (i a).val < win0_1.index t a * S256.size a + S256.size a := by
  show i ∈ ((View.whole main_v13).slice (win0_1.rect t)).set ↔ _
  rw [View.set_slice_whole, Rect.mem_set_unit]
  exact Iff.rfl

/-- The 32 blocks tile the 8192 entries: entry i is written back by the point whose block index is i / 256. -/
theorem cover (i : S8192.Idx) :
    ∃ t : Fin cfg0.N, (cfg0.win 1).flush t = true ∧ i ∈ ((cfg0.win 1).blk t).view.set := by
  have hi : (i 0).val < 8192 := (i 0).isLt
  obtain ⟨t, ht⟩ := idx_onto ⟨(i 0).val / 256, by omega⟩
  have q0 : win0_1.index t (0 : Fin 1) = (i 0).val / 256 := congrFun ht 0
  refine ⟨t, flush0_1 t, ?_⟩
  rw [mem_blk]
  intro a
  match a with
  | ⟨0, _⟩ =>
    show win0_1.index t (0 : Fin 1) * 256 ≤ (i 0).val ∧ (i 0).val < win0_1.index t (0 : Fin 1) * 256 + 256
    omega

/-- The output array after the run: the row sums of squares of w as launched. -/
theorem final (c : Dev nD) :
    (dats m 0 c).arrAt 1 cfg0.N = rowSqVec (m ((c : Thread nD τ).loc main_arg1)) :=
  ((dats m 0 c).arrAt_eq_of_cover 1 (rowSqVec (V m c main_arg1)) (fun t _ => flushed_eq m c t) cover).trans
    (congrArg rowSqVec (V_main_arg1 m c))

end Cert.KernelIdeal.RowSums

end
-- ==== Proof.Loss.lean ====
/-
  The scalar both programs return, as one function of x and of the vector r of row sums:

      loss d r = sqrt (∑ᵢ dᵢ · dᵢ · rᵢ),     d = s · (1 − s),     s = softmax x = exp (x − max x) / ∑ exp (x − max x).

  Both programs compute s, d and the final sum and square root by the SAME host operations, literal for literal
  (the −∞ pattern that starts the maximum, the zero that starts each sum, the constant one); they differ only in how r
  is obtained. So the chain is named here once, read at the ideal values, and never opened: the two results are
  equal as soon as the two vectors r are.
-/
import Idealize.ShloMosaic.PureOps.Ideal
import proofs.«128556_j41944650613016_1_alg».proof.Proof.RowSq

noncomputable section

namespace Cert.Loss

open Idealize.ShloMosaic Cert.RowSq

/-- A one-entry vector: the host broadcasts a scalar to 8192 entries through it. -/
abbrev S1 : Shape := ⟨1, ![1]⟩

theorem red0 : Sr.ReducesTo [0] S0 := by decide
theorem hS0 : 0 < S0.numel := by decide
theorem bc01 : S0.BroadcastsInDim S1 (![] : Fin 0 → Fin S1.rank) := by decide
theorem bc1r : S1.BroadcastsInDim Sr (![0] : Fin 1 → Fin Sr.rank) := by decide
theorem bc0r : S0.BroadcastsInDim Sr (![] : Fin 0 → Fin Sr.rank) := by decide
theorem redRows : Sw.ReducesTo [1] Sr := by decide

/-- max x, started from −∞ and compared with −∞ once more. -/
def xmax (x : FVec Ideal Sr .f32) : FVec Ideal S0 .f32 :=
  maximumf (constant (F := Ideal) S0 .f32 0xFF800000#32)
    (Host.reduce FloatOps.maximumf x (constant (F := Ideal) S0 .f32 0xFF800000#32) red0 hS0)

/-- exp (x − max x), entry by entry. -/
def expShift (x : FVec Ideal Sr .f32) : FVec Ideal Sr .f32 :=
  Host.exp (F := Ideal) (subf x (broadcastInDim Sr ![0] bc1r (broadcastInDim S1 ![] bc01 (xmax x))))

/-- s = softmax x. -/
def softmax (x : FVec Ideal Sr .f32) : FVec Ideal Sr .f32 :=
  Host.divf (F := Ideal) (expShift x)
    (broadcastInDim Sr ![0] bc1r (broadcastInDim S1 ![] bc01
      (Host.reduceAdd (F := Ideal) (expShift x) (constant (F := Ideal) S0 .f32 0x00000000#32) red0 hS0)))

/-- d = s · (1 − s): the diagonal of the softmax Jacobian. -/
def dvec (x : FVec Ideal Sr .f32) : FVec Ideal Sr .f32 :=
  mulf (softmax x) (subf (broadcastInDim Sr ![] bc0r (constant (F := Ideal) S0 .f32 0x3F800000#32)) (softmax x))

/-- loss d r = sqrt (0 + ∑ᵢ (dᵢ · dᵢ) · rᵢ). -/
def loss (d r : FVec Ideal Sr .f32) : FVec Ideal S0 .f32 :=
  Host.sqrt (F := Ideal)
    (Host.reduceAdd (F := Ideal) (mulf (mulf d d) r) (constant (F := Ideal) S0 .f32 0x00000000#32) red0 hS0)

/-- The host's own row sums of w · w are the vector rowSqVec w, so the reference's result is loss (dvec x) (rowSqVec w). -/
theorem loss_hostRows (x : FVec Ideal Sr .f32) (w : FVec Ideal Sw .f32) :
    loss (dvec x) (Host.reduceAdd (F := Ideal) (mulf w w) (constant (F := Ideal) S0 .f32 0x00000000#32) redRows hS0)
      = loss (dvec x) (rowSqVec w) :=
  congrArg (loss (dvec x)) (funext fun i => host_rowSq redRows hS0 w i)

end Cert.Loss

end
-- ==== Proof.KernelLoss.lean ====
/-
  The kernel program's result, read off its run.

  @main has three stretches. Seventeen host lines before the region compute d = s · (1 − s), s = softmax x, from x alone;
  the region fills the output array with the row sums of squares of w; five host lines after it multiply d · d by that
  array, add the entries up from zero and take the square root. Reading the lines after the region at the contents the
  region leaves — d where the first stretch put it, the row sums in the region's array — the result is
  loss (dvec x) (rowSqVec w), the arguments x and w being as launched.
-/
import proofs.«128556_j41944650613016_1_alg».proof.Proof.KernelRowSq
import proofs.«128556_j41944650613016_1_alg».proof.Proof.Loss
import Idealize.ShloMosaic.Lib.StableHlo.Run

set_option maxRecDepth 16384

noncomputable section

namespace Cert.KernelIdeal.LossValue

open Idealize.ShloMosaic Idealize.ShloMosaic.TcCoe Idealize.SL.Sem Idealize.ShloMosaic.StableHlo
open Cert.KernelIdeal Cert.KernelIdeal.Gen Cert.RowSq Cert.Loss

variable (m : (ℓ : Loc nD τ sig) → Buf (Elt Ideal) ℓ)

/-- The host lines before the region leave d = s · (1 − s), s = softmax x, in the buffer the later lines read it from. -/
theorem entry_d (c : Dev nD) : V m c main_v12 = dvec (m ((c : Thread nD τ).loc main_arg0)) := by
  show StableHlo.after hostOps0 (fun b => m (c, b)) (Proc.devRef .tc main_v12) = _
  after_results
  rfl

/-- The result buffer after the lines that follow the region: loss of d and of the row sums the region left. -/
theorem result_eq (c : Dev nD) :
    Pipeline.afterTail₀ cfgs (dats m) 0 (V0 m) [hostOps1] c main_v17
      = loss (dvec (m ((c : Thread nD τ).loc main_arg0))) (rowSqVec (m ((c : Thread nD τ).loc main_arg1))) := by
  have h12 : Pipeline.withArrays spec0 c (V0 m c) (fun w => (dats m 0 c).arrAt w cfg0.N) (Proc.devRef .tc main_v12)
      = dvec (m ((c : Thread nD τ).loc main_arg0)) :=
    (Pipeline.withArrays_of_ne spec0 c _ _ main_v12 (by exact (by decide : ∀ w, Pipeline.arrRef spec0 w ≠ main_v12))).trans
      (entry_d m c)
  have h13 : Pipeline.withArrays spec0 c (V0 m c) (fun w => (dats m 0 c).arrAt w cfg0.N) (Proc.devRef .tc main_v13)
      = rowSqVec (m ((c : Thread nD τ).loc main_arg1)) :=
    (Pipeline.withArrays_arr spec0 launch0.win.arr_inj c _ _ 1).trans (RowSums.final m c)
  unfold Pipeline.afterTail₀
  show StableHlo.after hostOps1 _ (Proc.devRef .tc main_v17) = _
  after_results
  exact congrArg₂ loss h12 h13

/-- Every weakly fair execution of the kernel program ends with its result at loss (dvec x) (rowSqVec w) and its
    arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v17)
        = loss (dvec (m ((c.tc : Thread nD τ).loc main_arg0))) (rowSqVec (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v17 (Pipeline.mem_restRefs_of main_v17 (by decide) (by decide))).trans (result_eq m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c)))⟩)
    (run_main m ρ)

end Cert.KernelIdeal.LossValue

end
-- ==== Proof.ReferenceLoss.lean ====
/-
  The reference program's result: its run ends at the composed term of its 25 host lines, which is
  loss (dvec x) r  with r the host's own row sums of w · w — and those are rowSqVec w.
-/
import proofs.«128556_j41944650613016_1_alg».proof.Proof.Gen.ReferenceIdeal.Run
import proofs.«128556_j41944650613016_1_alg».proof.Proof.Loss

noncomputable section

namespace Cert.ReferenceIdeal.LossValue

open Idealize.ShloMosaic Idealize.ShloMosaic.TcCoe Idealize.SL.Sem
open Cert.ReferenceIdeal Cert.ReferenceIdeal.Gen Cert.RowSq Cert.Loss

/-- Every weakly fair execution of the reference ends with its result at loss (dvec x) (rowSqVec w) and its arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
        = loss (dvec (m ((c.tc : Thread nD τ).loc main_arg0))) (rowSqVec (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h c).1.trans (loss_hostRows (m ((c.tc : Thread nD τ).loc main_arg0)) (m ((c.tc : Thread nD τ).loc main_arg1))), (h c).2⟩)
    (Cert.ReferenceIdeal.Value.run (F := Ideal) m ρ)

end Cert.ReferenceIdeal.LossValue

end
-- ==== Proof.lean ====
/-
  loss = ‖ diag(d) · w ‖_F  computed as  sqrt (∑ᵢ dᵢ² · ∑ₖ w[i,k]²),  d = s · (1 − s),  s = softmax x,
  for x of 8192 entries and w of 8192 × 8192: the kernel program against its plain reference.

  The two programs run the same host operations on x (the maximum from −∞, exp of the shifted entries, their sum from
  zero, the quotient, one minus it, the product) and the same closing ones (d · d times the row sums, the sum from zero,
  the square root), with the same literals. They differ in the row sums of w · w alone: the reference takes them by one
  host reduction over the columns; the kernel streams w through 32 blocks of 256 rows and reduces each block's squares
  along its lanes into a zero accumulator. At the ideal values both are  i ↦ ∑ₖ w[i,k]²  (the initial zero added in front
  on the host's side), block t holding entries 256·t … 256·t + 255 of that one vector and the 32 blocks tiling all 8192.
  No law beyond 0 + a = a is needed, so the precondition (finite inputs) is never opened.

  RowSq: the sum of squares of a row, read off the lane reduction and off the host reduction.
  Loss: the shared host chain, named once.  KernelRowSq: the kernel's output array is the row-sum vector.
  KernelLoss, ReferenceLoss: each program's run ends at loss (dvec x) (rowSqVec w).
  The frames of the two kernel programs are the generated ones; the reference's frame is its run with the result dropped;
  the ideal pass rewrote nothing, so the kernel program's idealization is its own text and that claim is trivial.
-/
import proofs.«128556_j41944650613016_1_alg».proof.Defs
import proofs.«128556_j41944650613016_1_alg».proof.Proof.Gen.Kernel
import proofs.«128556_j41944650613016_1_alg».proof.Proof.Gen.Kernel.Skeleton
import proofs.«128556_j41944650613016_1_alg».proof.Proof.Gen.Kernel.Launch
import proofs.«128556_j41944650613016_1_alg».proof.Proof.Gen.Kernel.Points
import proofs.«128556_j41944650613016_1_alg».proof.Proof.Gen.Kernel.Frame
import proofs.«128556_j41944650613016_1_alg».proof.Proof.Gen.KernelIdeal
import proofs.«128556_j41944650613016_1_alg».proof.Proof.Gen.KernelIdeal.Skeleton
import proofs.«128556_j41944650613016_1_alg».proof.Proof.Gen.KernelIdeal.Launch
import proofs.«128556_j41944650613016_1_alg».proof.Proof.Gen.KernelIdeal.Points
import proofs.«128556_j41944650613016_1_alg».proof.Proof.Gen.KernelIdeal.Frame
import proofs.«128556_j41944650613016_1_alg».proof.Proof.Gen.ReferenceIdeal
import proofs.«128556_j41944650613016_1_alg».proof.Proof.Gen.Pre_finite_inputs
import proofs.«128556_j41944650613016_1_alg».proof.Proof.Gen.ReferenceIdeal.Run
import proofs.«128556_j41944650613016_1_alg».proof.Proof.KernelLoss
import proofs.«128556_j41944650613016_1_alg».proof.Proof.ReferenceLoss
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.LossValue.run m ρ)

/-- From memories that agree on x and w both programs end at loss (dvec x) (rowSqVec w). -/
theorem algebraic : Cert.algebraic_KernelIdeal_ReferenceIdeal := by
  intro m ρ m' ρ' _ hagree
  refine ⟨_, Cert.KernelIdeal.LossValue.run m ρ, ?_⟩
  refine (θ_run Cert.ReferenceIdeal.defs _ _).mono (fun _ h c => ⟨(h c).1.trans ?_, (h c).2⟩)
    (Cert.ReferenceIdeal.LossValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
